-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x256 : Shape := ⟨2, ![160000, 256]⟩
abbrev S160000 : Shape := ⟨1, ![160000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S160000 : S_.BroadcastsInDim S160000 (![] : Fin 0 → Fin S160000.rank)
  reducesTo_S160000_S_d0 : S160000.ReducesTo [0] S_

variable [Facts]

def fn_part3 {F : FTy → Type} [FloatOps F] (main_arg2 : IVec S160000 32) (main_v48 : IVec S_ 1) (main_v50 : IVec S160000 1) : IVec S_ 1 :=
  let main_c_19 : IVec S_ 32 := constantI S_ 32 10000#32
  let main_v51 : IVec S160000 32 := broadcastInDim S160000 ![] bcast_S_S160000 main_c_19
  let main_v52 : IVec S160000 1 := cmpi .slt main_arg2 main_v51
  let main_v53 : IVec S160000 1 := andi main_v50 main_v52
  let main_c_20 : IVec S_ 1 := constantI S_ 1 1#1
  let main_v54 : IVec S_ 1 := (fun x v => Host.reduce IntOp.andi x v reducesTo_S160000_S_d0 h_S_) main_v53 main_c_20
  let main_v55 : IVec S_ 1 := andi main_v48 main_v54
  main_v55

def fn_part2 {F : FTy → Type} [FloatOps F] (main_arg2 : IVec S160000 32) (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S160000 32 := broadcastInDim S160000 ![] bcast_S_S160000 main_c_18
  let main_v50 : IVec S160000 1 := cmpi .sge main_arg2 main_v49
  fn_part3 (F := F) main_arg2 main_v48 main_v50

def fn_part1 {F : FTy → Type} [FloatOps F] (main_arg2 : IVec S160000 32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S10000x256 .f32) (main_arg1 : FVec F S160000x256 .f32) (main_arg2 : IVec S160000 32) (main_arg3 : IVec S160000 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_arg10 main_arg11 main_v13 main_v16
-- ==== Kernel.lean ====
abbrev S10000x256 : Shape := ⟨2, ![10000, 256]⟩
abbrev S160000x256 : Shape := ⟨2, ![160000, 256]⟩
abbrev S160000 : Shape := ⟨1, ![160000]⟩
abbrev S256x256 : Shape := ⟨2, ![256, 256]⟩
abbrev S256 : Shape := ⟨1, ![256]⟩
abbrev S1000x256 : Shape := ⟨2, ![1000, 256]⟩
abbrev S1x256 : Shape := ⟨2, ![1, 256]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S2000x256 : Shape := ⟨2, ![2000, 256]⟩

abbrev nBuf : Space → Nat
  | .hbm => 66
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S160000x256, .f32⟩
  | .hbm, ⟨2, _⟩ => ⟨S160000, .i32⟩
  | .hbm, ⟨3, _⟩ => ⟨S160000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x256, .f32⟩
  | .hbm, ⟨13, _⟩ => ⟨S10000x256, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S1, .i32⟩
  | .hbm, ⟨23, _⟩ => ⟨S_, .i32⟩
  | .hbm, ⟨24, _⟩ => ⟨S160000x1, .i32⟩
  | .hbm, ⟨25, _⟩ => ⟨S160000x1, .i1⟩
  | .hbm, ⟨26, _⟩ => ⟨S1x1, .i32⟩
  | .hbm, ⟨27, _⟩ => ⟨S160000x1, .i32⟩
  | .hbm, ⟨28, _⟩ => ⟨S160000x1, .i1⟩
  | .hbm, ⟨29, _⟩ => ⟨S160000x1, .i1⟩
  | .hbm, ⟨30, _⟩ => ⟨S_, .i1⟩
  | .hbm, ⟨31, _⟩ => ⟨S160000, .i1⟩
  | .hbm, ⟨32, _⟩ => ⟨S160000x256, .f32⟩
  | .hbm, ⟨33, _⟩ => ⟨S160000x256, .i1⟩
  | .hbm, ⟨34, _⟩ => ⟨S_, .f32⟩
  | .hbm, ⟨35, _⟩ => ⟨S160000x256, .f32⟩
  | .hbm, ⟨36, _⟩ => ⟨S160000x256, .f32⟩
  | .hbm, ⟨37, _⟩ => ⟨S_, .i32⟩
  | .hbm, ⟨38, _⟩ => ⟨S160000, .i32⟩
  | .hbm, ⟨39, _⟩ => ⟨S160000, .i1⟩
  | .hbm, ⟨40, _⟩ => ⟨S_, .i32⟩
  | .hbm, ⟨41, _⟩ => ⟨S160000, .i32⟩
  | .hbm, ⟨42, _⟩ => ⟨S160000, .i32⟩
  | .hbm, ⟨43, _⟩ => ⟨S160000, .i32⟩
  | .hbm, ⟨44, _⟩ => ⟨S160000x1, .i32⟩
  | .hbm, ⟨45, _⟩ => ⟨S1, .i32⟩
  | .hbm, ⟨46, _⟩ => ⟨S_, .i32⟩
  | .hbm, ⟨47, _⟩ => ⟨S160000x1, .i32⟩
  | .hbm, ⟨48, _⟩ => ⟨S160000x1, .i1⟩
  | .hbm, ⟨49, _⟩ => ⟨S1x1, .i32⟩
  | .hbm, ⟨50, _⟩ => ⟨S160000x1, .i32⟩
  | .hbm, ⟨51, _⟩ => ⟨S160000x1, .i1⟩
  | .hbm, ⟨52, _⟩ => ⟨S160000x1, .i1⟩
  | .hbm, ⟨53, _⟩ => ⟨S_, .i1⟩
  | .hbm, ⟨54, _⟩ => ⟨S160000, .i1⟩
  | .hbm, ⟨55, _⟩ => ⟨S160000x256, .f32⟩
  | .hbm, ⟨56, _⟩ => ⟨S160000x256, .i1⟩
  | .hbm, ⟨57, _⟩ => ⟨S_, .f32⟩
  | .hbm, ⟨58, _⟩ => ⟨S160000x256, .f32⟩
  | .hbm, ⟨59, _⟩ => ⟨S160000x256, .f32⟩
  | .hbm, ⟨60, _⟩ => ⟨S160000x256, .f32⟩
  | .hbm, ⟨61, _⟩ => ⟨S_, .f32⟩
  | .hbm, ⟨62, _⟩ => ⟨S10000x256, .f32⟩
  | .hbm, ⟨63, _⟩ => ⟨S160000x1, .i32⟩
  | .hbm, ⟨64, _⟩ => ⟨S10000x256, .f32⟩
  | .hbm, ⟨65, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1000x256, .f32⟩
  | .local _ .vmem, ⟨21, _⟩ => ⟨S1000x256, .f32⟩
  | .local _ .vmem, ⟨22, _⟩ => ⟨S256x256, .f32⟩
  | .local _ .vmem, ⟨23, _⟩ => ⟨S256, .f32⟩
  | .local _ .vmem, ⟨24, _⟩ => ⟨S1000x256, .f32⟩
  | .local _ .vmem, ⟨25, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_v3 : Ref sig .tc := ⟨.hbm, 60, rfl⟩
abbrev main_cst : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  shapeCasts_S2000x256_S2000x256 : S2000x256.ShapeCasts S2000x256
  bcast_S_S10000x256 : S_.BroadcastsInDim S10000x256 (![] : Fin 0 → Fin S10000x256.rank)
  shapeCasts_S1000x256_S1000x256 : S1000x256.ShapeCasts S1000x256
  dot_S1000x256_S256x256_S1000x256_1_0_0_1_n_n_wf : DotDims.WF S1000x256 S256x256 S1000x256 [1] [0] [0] [1] [] []
  gather_S10000x256_S160000x1_S160000x256_1_0_n_n_0_1_1256_wf : GatherDims.WF S10000x256 S160000x1 S160000x256 [1] [0] [] [0] [] 1 ![1, 256]
  dot_S2000x256_S256x256_S2000x256_1_0_0_1_n_n_wf : DotDims.WF S2000x256 S256x256 S2000x256 [1] [0] [0] [1] [] []
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S10000x256.size a
  hwx0_6 : ∀ i : grid0.Coords, EltTy.bits .f32 = 32 ∨ (Rect.block (s := S10000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S160000x256.size a
  hwx1_0 : ∀ i : grid1.Coords, EltTy.bits .f32 = 32 ∨ (Rect.block (s := S160000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S160000x256.size a
  hwx1_3 : ∀ i : grid1.Coords, EltTy.bits .f32 = 32 ∨ (Rect.block (s := S160000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S160000x256.size a
  hwx1_4 : ∀ i : grid1.Coords, EltTy.bits .f32 = 32 ∨ (Rect.block (s := S160000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S160000x256.size a
  hwx1_5 : ∀ i : grid1.Coords, EltTy.bits .f32 = 32 ∨ (Rect.block (s := S160000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S10000x256.size a
  hwx2_3 : ∀ i : grid2.Coords, EltTy.bits .f32 = 32 ∨ (Rect.block (s := S10000x256) S1000x256.size (cc2_transform_3 i) (hinb2_3 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x256 : Shape := ⟨2, ![10000, 256]⟩
abbrev S160000x256 : Shape := ⟨2, ![160000, 256]⟩
abbrev S160000 : Shape := ⟨1, ![160000]⟩
abbrev S256x256 : Shape := ⟨2, ![256, 256]⟩
abbrev S256 : Shape := ⟨1, ![256]⟩
abbrev S1x256 : Shape := ⟨2, ![1, 256]⟩
abbrev S_ : Shape := ⟨0, ![]⟩
abbrev S160000x1 : Shape := ⟨2, ![160000, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x256, .f32⟩
  | .hbm, ⟨2, _⟩ => ⟨S160000, .i32⟩
  | .hbm, ⟨3, _⟩ => ⟨S160000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S1x256, .f32⟩
  | .hbm, ⟨18, _⟩ => ⟨S10000x256, .f32⟩
  | .hbm, ⟨19, _⟩ => ⟨S10000x256, .f32⟩
  | .hbm, ⟨20, _⟩ => ⟨S160000x256, .f32⟩
  | .hbm, ⟨21, _⟩ => ⟨S1x256, .f32⟩
  | .hbm, ⟨22, _⟩ => ⟨S160000x256, .f32⟩
  | .hbm, ⟨23, _⟩ => ⟨S160000x256, .f32⟩
  | .hbm, ⟨24, _⟩ => ⟨S_, .i32⟩
  | .hbm, ⟨25, _⟩ => ⟨S160000, .i32⟩
  | .hbm, ⟨26, _⟩ => ⟨S160000, .i1⟩
  | .hbm, ⟨27, _⟩ => ⟨S_, .i32⟩
  | .hbm, ⟨28, _⟩ => ⟨S160000, .i32⟩
  | .hbm, ⟨29, _⟩ => ⟨S160000, .i32⟩
  | .hbm, ⟨30, _⟩ => ⟨S160000, .i32⟩
  | .hbm, ⟨31, _⟩ => ⟨S160000x1, .i32⟩
  | .hbm, ⟨32, _⟩ => ⟨S160000x256, .f32⟩
  | .hbm, ⟨33, _⟩ => ⟨S_, .i32⟩
  | .hbm, ⟨34, _⟩ => ⟨S160000, .i32⟩
  | .hbm, ⟨35, _⟩ => ⟨S160000, .i1⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S160000, .i32⟩
  | .hbm, ⟨40, _⟩ => ⟨S160000x1, .i32⟩
  | .hbm, ⟨41, _⟩ => ⟨S160000x256, .f32⟩
  | .hbm, ⟨42, _⟩ => ⟨S160000x256, .f32⟩
  | .hbm, ⟨43, _⟩ => ⟨S160000x256, .f32⟩
  | .hbm, ⟨44, _⟩ => ⟨S_, .f32⟩
  | .hbm, ⟨45, _⟩ => ⟨S160000x256, .f32⟩
  | .hbm, ⟨46, _⟩ => ⟨S160000x256, .f32⟩
  | .hbm, ⟨47, _⟩ => ⟨S_, .f32⟩
  | .hbm, ⟨48, _⟩ => ⟨S10000x256, .f32⟩
  | .hbm, ⟨49, _⟩ => ⟨S160000x1, .i32⟩
  | .hbm, ⟨50, _⟩ => ⟨S10000x256, .f32⟩
  | .hbm, ⟨51, _⟩ => ⟨S10000x256, .f32⟩
  | .hbm, ⟨52, _⟩ => ⟨S1x256, .f32⟩
  | .hbm, ⟨53, _⟩ => ⟨S10000x256, .f32⟩
  | .hbm, ⟨54, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S160000x256_0_1 : S1x256.BroadcastsInDim S160000x256 (![0, 1] : Fin 2 → Fin S160000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S160000x256 : S_.BroadcastsInDim S160000x256 (![] : Fin 0 → Fin S160000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S160000x256_S256x256_S160000x256_1_0_0_1_n_n_wf : DotDims.WF S160000x256 S256x256 S160000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.TakeDefs.lean ====
/-
  The two ways a row table `x : [10000, 256]` is read at an index array `a : [160000]`, as whole-array terms.

  Both programs first wrap a negative index once around (`a < 0 ↦ a + 10000`) and lay the result out as a column
  `[160000, 1]` of start indices (`idxCol`). The reference then gathers row `idxCol a e`, clamped into the table.
  The kernel's `jnp.take` gathers the same rows and, where the wrapped index is not in `[0, 9999]`, replaces the row by
  the fill word `0x7FC00000` (`takeFill`). Where the index is in range the two agree, row by row.
-/
import proofs.«402761_j2645699854682_1_alg».proof.Proof.Gen.KernelIdeal
import proofs.«402761_j2645699854682_1_alg».proof.Proof.Gen.ReferenceIdeal

noncomputable section

namespace Cert.KernelIdeal.Take

open Cert.KernelIdeal Idealize.ShloMosaic
open Cert.KernelIdeal.Facts₀ Cert.KernelIdeal.Facts

/-- The start-index column: each index wrapped once if negative. -/
def idxCol (a : IVec S160000 32) : IVec S160000x1 32 :=
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 10000#32))) a)

/-- Which rows' wrapped index lies in `[0, 9999]`, as one bit per row. -/
def inRange (a : IVec S160000 32) : IVec S160000 1 :=
  Host.reduce IntOp.andi
    (andi (cmpi .sge (idxCol a) (broadcastInDim S160000x1 ![] bcast_S_S160000x1 (constantI S_ 32 0#32)))
      (cmpi .sle (idxCol a) (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-- `jnp.take(x, a, axis=0)` as the kernel's host code computes it: the gathered rows, the fill word where out of range. -/
def takeFill {F : FTy → Type} [FloatOps F] (x : FVec F S10000x256 .f32) (a : IVec S160000 32) : FVec F S160000x256 .f32 :=
  select (broadcastInDim S160000x256 ![0] bcast_S160000_S160000x256_0 (inRange a))
    (Host.gather gather_S10000x256_S160000x1_S160000x256_1_0_n_n_0_1_1256 x (idxCol a))
    (broadcastInDim S160000x256 ![] bcast_S_S160000x256 (constant S_ .f32 0x7FC00000#32))

/-- The segment sum as the kernel's host code computes it: the edge rows added into a zero array at the rows `a` names. -/
def segSum {F : FTy → Type} [FloatOps F] (a : IVec S160000 32) (u : FVec F S160000x256 .f32) : FVec F S10000x256 .f32 :=
  Host.scatterAdd scatter_S10000x256_S160000x1_S160000x256_1_0_0_1
    (broadcastInDim S10000x256 ![] bcast_S_S10000x256 (constant S_ .f32 0x00000000#32))
    (broadcastInDim S160000x1 ![0] bcast_S160000_S160000x1_0 a) u

end Cert.KernelIdeal.Take

namespace Cert.ReferenceIdeal.Take

open Cert.ReferenceIdeal Idealize.ShloMosaic
open Cert.ReferenceIdeal.Facts₀ Cert.ReferenceIdeal.Facts

/-- The start-index column: each index wrapped once if negative. -/
def idxCol (a : IVec S160000 32) : IVec S160000x1 32 :=
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 10000#32))) a)

/-- `x[a]` as the reference computes it: the rows at the wrapped indices, clamped into the table. -/
def takeClamp {F : FTy → Type} [FloatOps F] (x : FVec F S10000x256 .f32) (a : IVec S160000 32) : FVec F S160000x256 .f32 :=
  Host.gather gather_S10000x256_S160000x1_S160000x256_1_0_n_n_0_1_1256 x (idxCol a)

/-- The segment sum as the reference computes it. -/
def segSum {F : FTy → Type} [FloatOps F] (a : IVec S160000 32) (u : FVec F S160000x256 .f32) : FVec F S10000x256 .f32 :=
  Host.scatterAdd scatter_S10000x256_S160000x1_S160000x256_1_0_0_1
    (broadcastInDim S10000x256 ![] bcast_S_S10000x256 (constant S_ .f32 0x00000000#32))
    (broadcastInDim S160000x1 ![0] bcast_S160000_S160000x1_0 a) u

end Cert.ReferenceIdeal.Take

end
-- ==== Proof.KFold.lean ====
/-
  The buffer contents at the boundaries between @main's segments, read back to the launch memory.

  Between the first and the second pallas_call two stretches of host operations take rows of the query and key arrays at
  the destination and source indices; between the second and the third one stretch sums the edge messages per destination.
  No host operation and no pallas_call writes an argument buffer, so each argument a later segment reads still holds
  what the launch memory held.
-/
import proofs.«402761_j2645699854682_1_alg».proof.Proof.Gen.KernelIdeal.Frame
import proofs.«402761_j2645699854682_1_alg».proof.Proof.TakeDefs
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer none of a stretch's operations writes holds after the stretch what it held before. -/
local macro "keep_through " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## After the first pallas_call -/

theorem W1_q (c : Dev nD) : W1 m ρ c (Proc.devRef .tc main_v0_0) = (dat0 (V0 m ρ) c).arrAt 5 cfg0.N := W1_arr m ρ c 5
theorem W1_k (c : Dev nD) : W1 m ρ c (Proc.devRef .tc main_v0_1) = (dat0 (V0 m ρ) c).arrAt 6 cfg0.N := W1_arr m ρ c 6

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg8 (c : Dev nD) : W1 m ρ c (Proc.devRef .tc main_arg8) = m ((c : Thread nD τ).loc main_arg8) := W1_of_ne m ρ c main_arg8 (by decide)
theorem W1_arg9 (c : Dev nD) : W1 m ρ c (Proc.devRef .tc main_arg9) = m ((c : Thread nD τ).loc main_arg9) := W1_of_ne m ρ c main_arg9 (by decide)
theorem W1_arg10 (c : Dev nD) : W1 m ρ c (Proc.devRef .tc main_arg10) = m ((c : Thread nD τ).loc main_arg10) := W1_of_ne m ρ c main_arg10 (by decide)
theorem W1_arg11 (c : Dev nD) : W1 m ρ c (Proc.devRef .tc main_arg11) = m ((c : Thread nD τ).loc main_arg11) := W1_of_ne m ρ c main_arg11 (by decide)

/-! ## After the first take -/

theorem W2_keep_arg1 (c : Dev nD) : W2 m ρ c (Proc.devRef .tc main_arg1) = W1 m ρ c (Proc.devRef .tc main_arg1) := by keep_through hostOps1
theorem W2_keep_arg2 (c : Dev nD) : W2 m ρ c (Proc.devRef .tc main_arg2) = W1 m ρ c (Proc.devRef .tc main_arg2) := by keep_through hostOps1
theorem W2_keep_arg3 (c : Dev nD) : W2 m ρ c (Proc.devRef .tc main_arg3) = W1 m ρ c (Proc.devRef .tc main_arg3) := by keep_through hostOps1
theorem W2_keep_arg8 (c : Dev nD) : W2 m ρ c (Proc.devRef .tc main_arg8) = W1 m ρ c (Proc.devRef .tc main_arg8) := by keep_through hostOps1
theorem W2_keep_arg9 (c : Dev nD) : W2 m ρ c (Proc.devRef .tc main_arg9) = W1 m ρ c (Proc.devRef .tc main_arg9) := by keep_through hostOps1
theorem W2_keep_arg10 (c : Dev nD) : W2 m ρ c (Proc.devRef .tc main_arg10) = W1 m ρ c (Proc.devRef .tc main_arg10) := by keep_through hostOps1
theorem W2_keep_arg11 (c : Dev nD) : W2 m ρ c (Proc.devRef .tc main_arg11) = W1 m ρ c (Proc.devRef .tc main_arg11) := by keep_through hostOps1
theorem W2_keep_k (c : Dev nD) : W2 m ρ c (Proc.devRef .tc main_v0_1) = W1 m ρ c (Proc.devRef .tc main_v0_1) := by keep_through hostOps1

/-- The first take's result: the query array's rows at the destination indices. -/
theorem W2_v1 (c : Dev nD) :
    W2 m ρ c (Proc.devRef .tc main_v1)
      = Take.takeFill (W1 m ρ c (Proc.devRef .tc main_v0_0)) (W1 m ρ c (Proc.devRef .tc main_arg3)) := by
  show StableHlo.after hostOps1 (W1 m ρ c) (Proc.devRef .tc main_v1) = _
  after_results_simp
  simp only [TRef.ofBuf, TRef.toBuf, cast_eq]
  rfl

/-! ## After the second take (the second pallas_call's entry) -/

theorem W3_keep_arg1 (c : Dev nD) : W3 m ρ c (Proc.devRef .tc main_arg1) = W2 m ρ c (Proc.devRef .tc main_arg1) := by keep_through hostOps1_1
theorem W3_keep_arg3 (c : Dev nD) : W3 m ρ c (Proc.devRef .tc main_arg3) = W2 m ρ c (Proc.devRef .tc main_arg3) := by keep_through hostOps1_1
theorem W3_keep_arg8 (c : Dev nD) : W3 m ρ c (Proc.devRef .tc main_arg8) = W2 m ρ c (Proc.devRef .tc main_arg8) := by keep_through hostOps1_1
theorem W3_keep_arg9 (c : Dev nD) : W3 m ρ c (Proc.devRef .tc main_arg9) = W2 m ρ c (Proc.devRef .tc main_arg9) := by keep_through hostOps1_1
theorem W3_keep_arg10 (c : Dev nD) : W3 m ρ c (Proc.devRef .tc main_arg10) = W2 m ρ c (Proc.devRef .tc main_arg10) := by keep_through hostOps1_1
theorem W3_keep_arg11 (c : Dev nD) : W3 m ρ c (Proc.devRef .tc main_arg11) = W2 m ρ c (Proc.devRef .tc main_arg11) := by keep_through hostOps1_1
theorem W3_keep_v1 (c : Dev nD) : W3 m ρ c (Proc.devRef .tc main_v1) = W2 m ρ c (Proc.devRef .tc main_v1) := by keep_through hostOps1_1

/-- The second take's result: the key array's rows at the source indices. -/
theorem W3_v2 (c : Dev nD) :
    W3 m ρ c (Proc.devRef .tc main_v2)
      = Take.takeFill (W2 m ρ c (Proc.devRef .tc main_v0_1)) (W2 m ρ c (Proc.devRef .tc main_arg2)) := by
  show StableHlo.after hostOps1_1 (W2 m ρ c) (Proc.devRef .tc main_v2) = _
  after_results_simp
  simp only [TRef.ofBuf, TRef.toBuf, cast_eq]
  rfl

/-- What the second pallas_call finds in its windows' arrays, in terms of the launch memory and the first call's results. -/
theorem V3_arg1 (c : Dev nD) : V3 m ρ c main_arg1 = m ((c : Thread nD τ).loc main_arg1) :=
  (W3_keep_arg1 m ρ c).trans ((W2_keep_arg1 m ρ c).trans (W1_arg1 m ρ c))
theorem V3_arg8 (c : Dev nD) : V3 m ρ c main_arg8 = m ((c : Thread nD τ).loc main_arg8) :=
  (W3_keep_arg8 m ρ c).trans ((W2_keep_arg8 m ρ c).trans (W1_arg8 m ρ c))
theorem V3_arg9 (c : Dev nD) : V3 m ρ c main_arg9 = m ((c : Thread nD τ).loc main_arg9) :=
  (W3_keep_arg9 m ρ c).trans ((W2_keep_arg9 m ρ c).trans (W1_arg9 m ρ c))
theorem V3_v1 (c : Dev nD) :
    V3 m ρ c main_v1 = Take.takeFill ((dat0 (V0 m ρ) c).arrAt 5 cfg0.N) (m ((c : Thread nD τ).loc main_arg3)) := by
  show W3 m ρ c (Proc.devRef .tc main_v1) = _
  rw [W3_keep_v1, W2_v1, W1_q, W1_arg3]
theorem V3_v2 (c : Dev nD) :
    V3 m ρ c main_v2 = Take.takeFill ((dat0 (V0 m ρ) c).arrAt 6 cfg0.N) (m ((c : Thread nD τ).loc main_arg2)) := by
  show W3 m ρ c (Proc.devRef .tc main_v2) = _
  rw [W3_v2, W2_keep_k, W1_k, W2_keep_arg2, W1_arg2]

/-! ## After the second pallas_call, and the segment sum (the third pallas_call's entry) -/

theorem W4_m (c : Dev nD) : W4 m ρ c (Proc.devRef .tc main_v3) = (dat1 (V3 m ρ) c).arrAt 5 cfg1.N := W4_arr m ρ c 5

theorem W4_arg3 (c : Dev nD) : W4 m ρ c (Proc.devRef .tc main_arg3) = m ((c : Thread nD τ).loc main_arg3) :=
  (W4_of_ne m ρ c main_arg3 (by decide)).trans ((W3_keep_arg3 m ρ c).trans ((W2_keep_arg3 m ρ c).trans (W1_arg3 m ρ c)))
theorem W4_arg10 (c : Dev nD) : W4 m ρ c (Proc.devRef .tc main_arg10) = m ((c : Thread nD τ).loc main_arg10) :=
  (W4_of_ne m ρ c main_arg10 (by decide)).trans ((W3_keep_arg10 m ρ c).trans ((W2_keep_arg10 m ρ c).trans (W1_arg10 m ρ c)))
theorem W4_arg11 (c : Dev nD) : W4 m ρ c (Proc.devRef .tc main_arg11) = m ((c : Thread nD τ).loc main_arg11) :=
  (W4_of_ne m ρ c main_arg11 (by decide)).trans ((W3_keep_arg11 m ρ c).trans ((W2_keep_arg11 m ρ c).trans (W1_arg11 m ρ c)))

theorem W5_keep_arg10 (c : Dev nD) : W5 m ρ c (Proc.devRef .tc main_arg10) = W4 m ρ c (Proc.devRef .tc main_arg10) := by keep_through hostOps2
theorem W5_keep_arg11 (c : Dev nD) : W5 m ρ c (Proc.devRef .tc main_arg11) = W4 m ρ c (Proc.devRef .tc main_arg11) := by keep_through hostOps2

/-- The segment sum's result: the message rows added into a zero array at the destination indices. -/
theorem W5_ft (c : Dev nD) :
    W5 m ρ c (Proc.devRef .tc main_v6)
      = Take.segSum (W4 m ρ c (Proc.devRef .tc main_arg3)) (W4 m ρ c (Proc.devRef .tc main_v3)) := by
  show StableHlo.after hostOps2 (W4 m ρ c) (Proc.devRef .tc main_v6) = _
  after_results_simp
  rfl

/-- What the third pallas_call finds in its windows' arrays. -/
theorem V5_ft (c : Dev nD) :
    V5 m ρ c main_v6 = Take.segSum (m ((c : Thread nD τ).loc main_arg3)) ((dat1 (V3 m ρ) c).arrAt 5 cfg1.N) := by
  show W5 m ρ c (Proc.devRef .tc main_v6) = _
  rw [W5_ft, W4_arg3, W4_m]
theorem V5_arg10 (c : Dev nD) : V5 m ρ c main_arg10 = m ((c : Thread nD τ).loc main_arg10) :=
  (W5_keep_arg10 m ρ c).trans (W4_arg10 m ρ c)
theorem V5_arg11 (c : Dev nD) : V5 m ρ c main_arg11 = m ((c : Thread nD τ).loc main_arg11) :=
  (W5_keep_arg11 m ρ c).trans (W4_arg11 m ρ c)

/-- The result buffer at the end of @main is the third pallas_call's result array. -/
theorem W6_out (c : Dev nD) : W6 m ρ c (Proc.devRef .tc main_v7) = (dat2 (V5 m ρ) c).arrAt 3 cfg2.N := W6_arr m ρ c 3

end Cert.KernelIdeal.Fold

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Spec.lean ====
/-
  The mathematics of the two programs, as functions of arrays of extended reals.

  Every dense layer here is affine: row `p` of the input against a weight matrix, plus a bias row,
  `(∑ k, X (p, k) * W (k, q)) + b q`. The edge message adds the two gathered node rows to the edge's own affine
  image and clips at zero: `max ((T₁ i + T₂ i) + affine A W b i) 0`, the zero being the word `0x00000000` read at
  the ideal instance on both sides (never evaluated).
-/
import Idealize.ShloMosaic.Lib.ValueIdx
import Idealize.ShloMosaic.PureOps.Ideal.Laws

noncomputable section

namespace Cert.Spec

open Idealize.ShloMosaic Idealize.ShloMosaic.ValueIdx
open scoped BigOperators

/-- A rank-2 array of extended reals. -/
abbrev A2 (n k : ℕ) : Type := (⟨2, ![n, k]⟩ : Shape).Idx → EReal
/-- A rank-1 array of extended reals. -/
abbrev A1 (n : ℕ) : Type := (⟨1, ![n]⟩ : Shape).Idx → EReal

/-- One affine layer: entry `(p, q)` is row `p` of `X` against column `q` of `W`, plus `b q`. -/
def affine {n K N : ℕ} (X : A2 n K) (W : A2 K N) (b : A1 N) : A2 n N :=
  fun i => (∑ k : Fin K, X (ix2 (i 0) k) * W (ix2 k (i 1))) + b (ix1 (i 1))

theorem affine_apply {n K N : ℕ} (X : A2 n K) (W : A2 K N) (b : A1 N) (p : Fin n) (q : Fin N) :
    affine X W b (ix2 p q) = (∑ k : Fin K, X (ix2 p k) * W (ix2 k q)) + b (ix1 q) := rfl

/-- The edge message: the two gathered rows added, then the edge's own affine image, clipped below at zero. -/
def edge {n K N : ℕ} (A : A2 n K) (W : A2 K N) (b : A1 N) (T1 T2 : A2 n N) : A2 n N :=
  fun i => max ((T1 i + T2 i) + affine A W b i) (Ideal.ofBits .f32 0x00000000#32)

theorem edge_apply {n K N : ℕ} (A : A2 n K) (W : A2 K N) (b : A1 N) (T1 T2 : A2 n N) (i : (⟨2, ![n, N]⟩ : Shape).Idx) :
    edge A W b T1 T2 i = max ((T1 i + T2 i) + affine A W b i) (Ideal.ofBits .f32 0x00000000#32) := rfl

/-- The edge message at one index depends on the gathered rows only through their entries at that index. -/
theorem edge_congr {n K N : ℕ} (A : A2 n K) (W : A2 K N) (b : A1 N) (T1 T2 T1' T2' : A2 n N) (i : (⟨2, ![n, N]⟩ : Shape).Idx)
    (h1 : T1 i = T1' i) (h2 : T2 i = T2' i) : edge A W b T1 T2 i = edge A W b T1' T2' i := by
  rw [edge_apply, edge_apply, h1, h2]

end Cert.Spec

end
-- ==== Proof.Reg0.lean ====
/-
  The first pallas_call's two result arrays, read off its frame run at any region-entry contents `V`.

  The call tiles the `[10000, 256]` node features into ten blocks of 1000 rows. At each block the body multiplies the
  block by the query weights into a zero accumulator and adds the query bias, and does the same with the key weights
  and the key bias. Row `1000 t + p` of either result depends on row `1000 t + p` of the features only, and the ten
  written blocks tile each result: the two arrays end at the affine images of the feature array.
-/
import proofs.«402761_j2645699854682_1_alg».proof.Proof.Gen.KernelIdeal.Frame
import proofs.«402761_j2645699854682_1_alg».proof.Proof.LibRowOps
import proofs.«402761_j2645699854682_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.QK

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The query store at `(p, q)`: row `p` of the loaded block against column `q` of the query weights, plus the bias. -/
theorem payq_apply (x0 : Vec Ideal S1000x256 .f32) (w : Vec Ideal S256x256 .f32) (b : Vec Ideal S256 .f32) (p : Fin 1000) (q : Fin 256) :
    k0_pay2 (F := Ideal) x0 w b (ix2 p q) = (∑ k : Fin 256, x0 (ix2 p k) * w (ix2 k q)) + b (ix1 q) := by
  unfold k0_pay2
  exact Cert.LibRowOps.layer_apply dot_S1000x256_S256x256_S1000x256_1_0_0_1_n_n rfl _ _ b _ _ p q (fun k => x0 (ix2 p k))
    (fun k => by unfold k0_pay1; rw [truncf_apply])

/-- The key store at `(p, q)`: the same with the key weights and the key bias. -/
theorem payk_apply (x0 : Vec Ideal S1000x256 .f32) (w : Vec Ideal S256x256 .f32) (b : Vec Ideal S256 .f32) (p : Fin 1000) (q : Fin 256) :
    k0_pay3 (F := Ideal) x0 w b (ix2 p q) = (∑ k : Fin 256, x0 (ix2 p k) * w (ix2 k q)) + b (ix1 q) := by
  unfold k0_pay3
  exact Cert.LibRowOps.layer_apply dot_S1000x256_S256x256_S1000x256_1_0_0_1_n_n rfl _ _ b _ _ p q (fun k => x0 (ix2 p k))
    (fun k => by unfold k0_pay1; rw [truncf_apply])

/-- Where the call's index maps put the blocks: the feature rows and both results' rows move together; the weights and the
    biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := lt_of_lt_of_eq t.isLt N_0

/-- The feature block at point `t` is rows `1000 t … 1000 t + 999` of the feature array. -/
theorem iblk_x (c : Dev nD) (t : Fin cfg0.N) (p : Fin 1000) (k : Fin 256) (r : Fin 10000) (hr : r.val = 1000 * t.val + p.val) :
    (iblk0 V c 0 t : Vec Ideal S1000x256 .f32) (ix2 p k) = (V c main_arg0 : S10000x256.Idx → EReal) (ix2 r k) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 1000 + 1 * p.val = r.val; omega
  | ⟨1, _⟩ => show win0_0.index t (1 : Fin 2) * 256 + 1 * k.val = k.val; omega

/-- The query weights' block is the whole matrix at every point. -/
theorem iblk_wq (c : Dev nD) (t : Fin cfg0.N) (k q : Fin 256) :
    (iblk0 V c 1 t : Vec Ideal S256x256 .f32) (ix2 k q) = (V c main_arg4 : S256x256.Idx → EReal) (ix2 k q) := by
  obtain ⟨-, -, e2, e3, -⟩ := idx_facts t
  unfold iblk0
  rw [View.read_apply]
  show V c main_arg4 _ = V c main_arg4 _
  congr 1
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- The query bias block is the whole row at every point. -/
theorem iblk_bq (c : Dev nD) (t : Fin cfg0.N) (q : Fin 256) :
    (iblk0 V c 2 t : Vec Ideal S256 .f32) (ix1 q) = (V c main_arg5 : S256.Idx → EReal) (ix1 q) := by
  obtain ⟨-, -, -, -, e4, -⟩ := idx_facts t
  unfold iblk0
  rw [View.read_apply]
  show V c main_arg5 _ = V c main_arg5 _
  congr 1
  funext a; apply Fin.ext
  match a with
  | ⟨0, _⟩ => show win0_2.index t (0 : Fin 1) * 256 + 1 * q.val = q.val; omega

/-- The key weights' block is the whole matrix at every point. -/
theorem iblk_wk (c : Dev nD) (t : Fin cfg0.N) (k q : Fin 256) :
    (iblk0 V c 3 t : Vec Ideal S256x256 .f32) (ix2 k q) = (V c main_arg6 : S256x256.Idx → EReal) (ix2 k q) := by
  obtain ⟨-, -, -, -, -, e5, e6, -⟩ := idx_facts t
  unfold iblk0
  rw [View.read_apply]
  show V c main_arg6 _ = V c main_arg6 _
  congr 1
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- The key bias block is the whole row at every point. -/
theorem iblk_bk (c : Dev nD) (t : Fin cfg0.N) (q : Fin 256) :
    (iblk0 V c 4 t : Vec Ideal S256 .f32) (ix1 q) = (V c main_arg7 : S256.Idx → EReal) (ix1 q) := by
  obtain ⟨-, -, -, -, -, -, -, e7, -⟩ := idx_facts t
  unfold iblk0
  rw [View.read_apply]
  show V c main_arg7 _ = V c main_arg7 _
  congr 1
  funext a; apply Fin.ext
  match a with
  | ⟨0, _⟩ => show win0_4.index t (0 : Fin 1) * 256 + 1 * q.val = q.val; omega

/-- What point `t` writes back into the query result is block `t` of the affine image of the features. -/
theorem flushed_q (c : Dev nD) (t : Fin cfg0.N) :
    (dat0 V c).flushed 5 t = ((cfg0.win 5).blk t).view.read (Elt Ideal)
      (Cert.Spec.affine (V c main_arg0) (V c main_arg4) (V c main_arg5)) := by
  show (cfg0.win 5).cut (grid0.coords t) ((dat0 V c).after 5 t) = _
  rw [after0_5]
  unfold out0_5
  rw [View.canon_unit_zero hz2]
  simp only [View.ld_unit_zero (S := S1000x256) hz2, View.ld_unit_zero (S := S256x256) hz2, View.ld_unit_zero (S := S256) hz1]
  obtain ⟨-, -, -, -, -, -, -, -, e8, e9, -⟩ := idx_facts t
  have ht := t_lt t
  funext j
  obtain ⟨p, q, rfl⟩ : ∃ (p : Fin 1000) (q : Fin 256), j = ix2 p q := ⟨j 0, j 1, eq_ix2 j⟩
  refine (payq_apply _ _ _ p q).trans ?_
  rw [View.read_apply]
  have hout : ((cfg0.win 5).blk t).view.emb (ix2 p q) = (ix2 (⟨1000 * t.val + p.val, by omega⟩ : Fin 10000) q : S10000x256.Idx) := by
    funext a; apply Fin.ext
    match a with
    | ⟨0, _⟩ => show win0_5.index t (0 : Fin 2) * 1000 + 1 * p.val = 1000 * t.val + p.val; omega
    | ⟨1, _⟩ => show win0_5.index t (1 : Fin 2) * 256 + 1 * q.val = q.val; omega
  rw [hout]
  show _ = Cert.Spec.affine (V c main_arg0) (V c main_arg4) (V c main_arg5) (ix2 (⟨1000 * t.val + p.val, by omega⟩ : Fin 10000) q)
  rw [Cert.Spec.affine_apply, iblk_bq V c t q]
  refine congrArg (· + _) (Finset.sum_congr rfl fun k _ => ?_)
  rw [iblk_x V c t p k ⟨1000 * t.val + p.val, by omega⟩ rfl, iblk_wq V c t k q]

/-- What point `t` writes back into the key result is block `t` of the other affine image of the features. -/
theorem flushed_k (c : Dev nD) (t : Fin cfg0.N) :
    (dat0 V c).flushed 6 t = ((cfg0.win 6).blk t).view.read (Elt Ideal)
      (Cert.Spec.affine (V c main_arg0) (V c main_arg6) (V c main_arg7)) := by
  show (cfg0.win 6).cut (grid0.coords t) ((dat0 V c).after 6 t) = _
  rw [after0_6]
  unfold out0_6
  rw [View.canon_unit_zero hz2]
  simp only [View.ld_unit_zero (S := S1000x256) hz2, View.ld_unit_zero (S := S256x256) hz2, View.ld_unit_zero (S := S256) hz1]
  obtain ⟨-, -, -, -, -, -, -, -, -, -, e10, e11⟩ := idx_facts t
  have ht := t_lt t
  funext j
  obtain ⟨p, q, rfl⟩ : ∃ (p : Fin 1000) (q : Fin 256), j = ix2 p q := ⟨j 0, j 1, eq_ix2 j⟩
  refine (payk_apply _ _ _ p q).trans ?_
  rw [View.read_apply]
  have hout : ((cfg0.win 6).blk t).view.emb (ix2 p q) = (ix2 (⟨1000 * t.val + p.val, by omega⟩ : Fin 10000) q : S10000x256.Idx) := by
    funext a; apply Fin.ext
    match a with
    | ⟨0, _⟩ => show win0_6.index t (0 : Fin 2) * 1000 + 1 * p.val = 1000 * t.val + p.val; omega
    | ⟨1, _⟩ => show win0_6.index t (1 : Fin 2) * 256 + 1 * q.val = q.val; omega
  rw [hout]
  show _ = Cert.Spec.affine (V c main_arg0) (V c main_arg6) (V c main_arg7) (ix2 (⟨1000 * t.val + p.val, by omega⟩ : Fin 10000) q)
  rw [Cert.Spec.affine_apply, iblk_bk V c t q]
  refine congrArg (· + _) (Finset.sum_congr rfl fun k _ => ?_)
  rw [iblk_x V c t p k ⟨1000 * t.val + p.val, by omega⟩ rfl, iblk_wk V c t k q]

/-- An index of the query result is in point `t`'s block iff its row is among that block's thousand rows. -/
theorem mem_blk_q (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v0_0).slice (win0_5.rect t)).set ↔ _
  rw [View.set_slice_whole, Rect.mem_set_unit]
  exact Iff.rfl

/-- The same for the key result. -/
theorem mem_blk_k (t : Fin cfg0.N) (i : S10000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v0_1).slice (win0_6.rect t)).set ↔ _
  rw [View.set_slice_whole, Rect.mem_set_unit]
  exact Iff.rfl

/-- The ten blocks tile the query result: row `r` lies in block `r / 1000`. -/
theorem cover_q (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  refine ⟨⟨(i 0).val / 1000, by rw [show cfg0.N = 10 from N_0]; omega⟩, flush0_5 _, ?_⟩
  rw [mem_blk_q]
  obtain ⟨-, -, -, -, -, -, -, -, e8, e9, -⟩ := idx_facts ⟨(i 0).val / 1000, by rw [show cfg0.N = 10 from N_0]; omega⟩
  intro a
  match a with
  | ⟨0, _⟩ => show win0_5.index _ (0 : Fin 2) * 1000 ≤ (i 0).val ∧ (i 0).val < win0_5.index _ (0 : Fin 2) * 1000 + 1000; rw [e8]; show (i 0).val / 1000 * 1000 ≤ _ ∧ _ < (i 0).val / 1000 * 1000 + 1000; omega
  | ⟨1, _⟩ => show win0_5.index _ (1 : Fin 2) * 256 ≤ (i 1).val ∧ (i 1).val < win0_5.index _ (1 : Fin 2) * 256 + 256; rw [e9]; omega

/-- The ten blocks tile the key result. -/
theorem cover_k (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  refine ⟨⟨(i 0).val / 1000, by rw [show cfg0.N = 10 from N_0]; omega⟩, flush0_6 _, ?_⟩
  rw [mem_blk_k]
  obtain ⟨-, -, -, -, -, -, -, -, -, -, e10, e11⟩ := idx_facts ⟨(i 0).val / 1000, by rw [show cfg0.N = 10 from N_0]; omega⟩
  intro a
  match a with
  | ⟨0, _⟩ => show win0_6.index _ (0 : Fin 2) * 1000 ≤ (i 0).val ∧ (i 0).val < win0_6.index _ (0 : Fin 2) * 1000 + 1000; rw [e10]; show (i 0).val / 1000 * 1000 ≤ _ ∧ _ < (i 0).val / 1000 * 1000 + 1000; omega
  | ⟨1, _⟩ => show win0_6.index _ (1 : Fin 2) * 256 ≤ (i 1).val ∧ (i 1).val < win0_6.index _ (1 : Fin 2) * 256 + 256; rw [e11]; omega

/-- THE QUERY ARRAY after the call: the affine image of the features under the query weights and bias. -/
theorem q_array (c : Dev nD) :
    (dat0 V c).arrAt 5 cfg0.N = Cert.Spec.affine (V c main_arg0) (V c main_arg4) (V c main_arg5) :=
  (dat0 V c).arrAt_eq_of_cover 5 _ (fun t _ => flushed_q V c t) cover_q

/-- THE KEY ARRAY after the call: the affine image of the features under the key weights and bias. -/
theorem k_array (c : Dev nD) :
    (dat0 V c).arrAt 6 cfg0.N = Cert.Spec.affine (V c main_arg0) (V c main_arg6) (V c main_arg7) :=
  (dat0 V c).arrAt_eq_of_cover 6 _ (fun t _ => flushed_k V c t) cover_k

end Cert.KernelIdeal.QK

end
-- ==== Proof.Reg1.lean ====
/-
  The second pallas_call's result array, read off its frame run at any region-entry contents `V`.

  The call tiles the `[160000, 256]` edge features, and the two gathered node arrays of the same shape, into eighty blocks
  of 2000 rows. At each block the body multiplies the edge block by the edge weights into a zero accumulator, adds the
  bias row, adds that to the sum of the two gathered blocks, and clips at zero. Row `2000 t + p` of the result depends on
  row `2000 t + p` of each of the three arrays only, and the eighty written blocks tile the result: the array ends at the
  edge message of the three arrays.
-/
import proofs.«402761_j2645699854682_1_alg».proof.Proof.Gen.KernelIdeal.Frame
import proofs.«402761_j2645699854682_1_alg».proof.Proof.LibRowOps
import proofs.«402761_j2645699854682_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Edge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at `(p, q)`: the two gathered entries added, then row `p` of the edge block against column `q` of
    the weights plus the bias, the whole clipped below at the zero word's value. -/
theorem pay_apply (x0 : Vec Ideal S2000x256 .f32) (w : Vec Ideal S256x256 .f32) (b : Vec Ideal S256 .f32)
    (t1 t2 : Vec Ideal S2000x256 .f32) (p : Fin 2000) (q : Fin 256) :
    k1_pay1 (F := Ideal) x0 w b t1 t2 (ix2 p q)
      = max ((t1 (ix2 p q) + t2 (ix2 p q)) + ((∑ k : Fin 256, x0 (ix2 p k) * w (ix2 k q)) + b (ix1 q)))
          (Ideal.ofBits .f32 0x00000000#32) := by
  have hl := Cert.LibRowOps.layer_apply dot_S2000x256_S256x256_S2000x256_1_0_0_1_n_n rfl
    (truncf .bf16 x0 bitsLt_bf16_f32 : FVec Ideal S2000x256 .bf16) (truncf .bf16 w bitsLt_bf16_f32 : FVec Ideal S256x256 .bf16) b
    shapeCasts_S256_S1x256 broadcasts_S1x256_S2000x256 p q (fun k => x0 (ix2 p k)) (fun k => rfl)
  unfold k1_pay1
  show max ((shapeCast S2000x256 t1 shapeCasts_S2000x256_S2000x256 (ix2 p q) + shapeCast S2000x256 t2 shapeCasts_S2000x256_S2000x256 (ix2 p q))
      + addf (F := Ideal) (matmul dot_S2000x256_S256x256_S2000x256_1_0_0_1_n_n none (truncf .bf16 x0 bitsLt_bf16_f32 : FVec Ideal S2000x256 .bf16) (truncf .bf16 w bitsLt_bf16_f32 : FVec Ideal S256x256 .bf16) (constant (F := Ideal) S2000x256 .f32 0x00000000#32))
          (broadcastTo S2000x256 (shapeCast S1x256 b shapeCasts_S256_S1x256) broadcasts_S1x256_S2000x256) (ix2 p q))
      (Ideal.ofBits .f32 0x00000000#32) = _
  rw [shapeCast_self, shapeCast_self, hl]
  rfl

/-- Where the call's index maps put the blocks: the edge rows, the two gathered arrays' rows and the result's rows move
    together; the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 80 := lt_of_lt_of_eq t.isLt N_1

/-- The edge block at point `t` is rows `2000 t … 2000 t + 1999` of the edge features. -/
theorem iblk_x (c : Dev nD) (t : Fin cfg1.N) (p : Fin 2000) (k : Fin 256) (r : Fin 160000) (hr : r.val = 2000 * t.val + p.val) :
    (iblk1 V c 0 t : Vec Ideal S2000x256 .f32) (ix2 p k) = (V c main_arg1 : S160000x256.Idx → EReal) (ix2 r k) := by
  obtain ⟨e0, e1, -⟩ := idx_facts t
  unfold iblk1
  rw [View.read_apply]
  show V c main_arg1 _ = V c main_arg1 _
  congr 1
  funext a; apply Fin.ext
  match a with
  | ⟨0, _⟩ => show win1_0.index t (0 : Fin 2) * 2000 + 1 * p.val = r.val; omega
  | ⟨1, _⟩ => show win1_0.index t (1 : Fin 2) * 256 + 1 * k.val = k.val; omega

/-- The weights' block is the whole matrix at every point. -/
theorem iblk_w (c : Dev nD) (t : Fin cfg1.N) (k q : Fin 256) :
    (iblk1 V c 1 t : Vec Ideal S256x256 .f32) (ix2 k q) = (V c main_arg8 : S256x256.Idx → EReal) (ix2 k q) := by
  obtain ⟨-, -, e2, e3, -⟩ := idx_facts t
  unfold iblk1
  rw [View.read_apply]
  show V c main_arg8 _ = V c main_arg8 _
  congr 1
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- The bias block is the whole row at every point. -/
theorem iblk_b (c : Dev nD) (t : Fin cfg1.N) (q : Fin 256) :
    (iblk1 V c 2 t : Vec Ideal S256 .f32) (ix1 q) = (V c main_arg9 : S256.Idx → EReal) (ix1 q) := by
  obtain ⟨-, -, -, -, e4, -⟩ := idx_facts t
  unfold iblk1
  rw [View.read_apply]
  show V c main_arg9 _ = V c main_arg9 _
  congr 1
  funext a; apply Fin.ext
  match a with
  | ⟨0, _⟩ => show win1_2.index t (0 : Fin 1) * 256 + 1 * q.val = q.val; omega

/-- The first gathered array's block at point `t` is its rows `2000 t … 2000 t + 1999`. -/
theorem iblk_t1 (c : Dev nD) (t : Fin cfg1.N) (p : Fin 2000) (q : Fin 256) (r : Fin 160000) (hr : r.val = 2000 * t.val + p.val) :
    (iblk1 V c 3 t : Vec Ideal S2000x256 .f32) (ix2 p q) = (V c main_v1 : S160000x256.Idx → EReal) (ix2 r q) := by
  obtain ⟨-, -, -, -, -, e5, e6, -⟩ := idx_facts t
  unfold iblk1
  rw [View.read_apply]
  show V c main_v1 _ = V c main_v1 _
  congr 1
  funext a; apply Fin.ext
  match a with
  | ⟨0, _⟩ => show win1_3.index t (0 : Fin 2) * 2000 + 1 * p.val = r.val; omega
  | ⟨1, _⟩ => show win1_3.index t (1 : Fin 2) * 256 + 1 * q.val = q.val; omega

/-- The second gathered array's block at point `t` is its rows `2000 t … 2000 t + 1999`. -/
theorem iblk_t2 (c : Dev nD) (t : Fin cfg1.N) (p : Fin 2000) (q : Fin 256) (r : Fin 160000) (hr : r.val = 2000 * t.val + p.val) :
    (iblk1 V c 4 t : Vec Ideal S2000x256 .f32) (ix2 p q) = (V c main_v2 : S160000x256.Idx → EReal) (ix2 r q) := by
  obtain ⟨-, -, -, -, -, -, -, e7, e8, -⟩ := idx_facts t
  unfold iblk1
  rw [View.read_apply]
  show V c main_v2 _ = V c main_v2 _
  congr 1
  funext a; apply Fin.ext
  match a with
  | ⟨0, _⟩ => show win1_4.index t (0 : Fin 2) * 2000 + 1 * p.val = r.val; omega
  | ⟨1, _⟩ => show win1_4.index t (1 : Fin 2) * 256 + 1 * q.val = q.val; omega

/-- What point `t` writes back is block `t` of the edge message of the arrays the region was entered with. -/
theorem flushed_eq (c : Dev nD) (t : Fin cfg1.N) :
    (dat1 V c).flushed 5 t = ((cfg1.win 5).blk t).view.read (Elt Ideal)
      (Cert.Spec.edge (V c main_arg1) (V c main_arg8) (V c main_arg9) (V c main_v1) (V c main_v2)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  obtain ⟨-, -, -, -, -, -, -, -, -, e9, e10⟩ := idx_facts t
  have ht := t_lt t
  funext j
  obtain ⟨p, q, rfl⟩ : ∃ (p : Fin 2000) (q : Fin 256), j = ix2 p q := ⟨j 0, j 1, eq_ix2 j⟩
  refine (pay_apply _ _ _ _ _ p q).trans ?_
  rw [View.read_apply]
  obtain ⟨r, hr⟩ : ∃ r : Fin 160000, r.val = 2000 * t.val + p.val := ⟨⟨2000 * t.val + p.val, by omega⟩, rfl⟩
  have hout : ((cfg1.win 5).blk t).view.emb (ix2 p q) = (ix2 r q : S160000x256.Idx) := by
    funext a; apply Fin.ext
    match a with
    | ⟨0, _⟩ => show win1_5.index t (0 : Fin 2) * 2000 + 1 * p.val = r.val; omega
    | ⟨1, _⟩ => show win1_5.index t (1 : Fin 2) * 256 + 1 * q.val = q.val; omega
  rw [hout]
  show _ = Cert.Spec.edge (V c main_arg1) (V c main_arg8) (V c main_arg9) (V c main_v1) (V c main_v2) (ix2 r q)
  rw [Cert.Spec.edge_apply, Cert.Spec.affine_apply, iblk_b V c t q, iblk_t1 V c t p q r hr, iblk_t2 V c t p q r hr]
  simp only [iblk_x V c t p _ r hr, iblk_w V c t]

/-- An index of the result array is in point `t`'s block iff its row is among that block's two thousand rows. -/
theorem mem_blk (t : Fin cfg1.N) (i : S160000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v3).slice (win1_5.rect t)).set ↔ _
  rw [View.set_slice_whole, Rect.mem_set_unit]
  exact Iff.rfl

/-- The eighty blocks tile the result: row `r` lies in block `r / 2000`. -/
theorem cover (i : S160000x256.Idx) : ∃ t : Fin cfg1.N, (cfg1.win 5).flush t = true ∧ i ∈ ((cfg1.win 5).blk t).view.set := by
  have hi0 : (i 0).val < 160000 := (i 0).isLt
  have hi1 : (i 1).val < 256 := (i 1).isLt
  refine ⟨⟨(i 0).val / 2000, by rw [show cfg1.N = 80 from N_1]; omega⟩, flush1_5 _, ?_⟩
  rw [mem_blk]
  obtain ⟨-, -, -, -, -, -, -, -, -, e9, e10⟩ := idx_facts ⟨(i 0).val / 2000, by rw [show cfg1.N = 80 from N_1]; omega⟩
  intro a
  match a with
  | ⟨0, _⟩ => show win1_5.index _ (0 : Fin 2) * 2000 ≤ (i 0).val ∧ (i 0).val < win1_5.index _ (0 : Fin 2) * 2000 + 2000; rw [e9]; show (i 0).val / 2000 * 2000 ≤ _ ∧ _ < (i 0).val / 2000 * 2000 + 2000; omega
  | ⟨1, _⟩ => show win1_5.index _ (1 : Fin 2) * 256 ≤ (i 1).val ∧ (i 1).val < win1_5.index _ (1 : Fin 2) * 256 + 256; rw [e10]; omega

/-- THE MESSAGE ARRAY after the call: the edge message of the edge features and the two gathered arrays. -/
theorem m_array (c : Dev nD) :
    (dat1 V c).arrAt 5 cfg1.N
      = Cert.Spec.edge (V c main_arg1) (V c main_arg8) (V c main_arg9) (V c main_v1) (V c main_v2) :=
  (dat1 V c).arrAt_eq_of_cover 5 _ (fun t _ => flushed_eq V c t) cover

end Cert.KernelIdeal.Edge

end
-- ==== Proof.Reg2.lean ====
/-
  The third pallas_call's result array, read off its frame run at any region-entry contents `V`.

  The call tiles the `[10000, 256]` input into ten blocks of 1000 rows; at each block the body multiplies the block by the
  whole weight matrix into a zero accumulator and adds the bias row. Row `1000 t + p` of the result therefore depends on
  row `1000 t + p` of the input only, and the ten written blocks tile the result: the array ends at the affine image of the
  input array, `(∑ k, X (r, k) * W (k, q)) + b q` at `(r, q)`.
-/
import proofs.«402761_j2645699854682_1_alg».proof.Proof.Gen.KernelIdeal.Frame
import proofs.«402761_j2645699854682_1_alg».proof.Proof.LibRowOps
import proofs.«402761_j2645699854682_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at `(p, q)`: row `p` of the loaded block against column `q` of the weights, plus the bias. -/
theorem pay_apply (x0 : Vec Ideal S1000x256 .f32) (x3 : Vec Ideal S256x256 .f32) (x6 : Vec Ideal S256 .f32) (p : Fin 1000) (q : Fin 256) :
    k2_pay1 (F := Ideal) x0 x3 x6 (ix2 p q) = (∑ k : Fin 256, x0 (ix2 p k) * x3 (ix2 k q)) + x6 (ix1 q) := by
  unfold k2_pay1
  exact Cert.LibRowOps.layer_apply dot_S1000x256_S256x256_S1000x256_1_0_0_1_n_n rfl _ _ x6 _ _ p q (fun k => x0 (ix2 p k))
    (fun k => by rw [truncf_apply, shapeCast_self])

/-- Where the call's index maps put the blocks: the input rows and the output rows move together, the weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem t_lt (t : Fin cfg2.N) : t.val < 10 := lt_of_lt_of_eq t.isLt N_2

/-- The input block at point `t` is rows `1000 t … 1000 t + 999` of the input array. -/
theorem iblk_x (c : Dev nD) (t : Fin cfg2.N) (p : Fin 1000) (k : Fin 256) (r : Fin 10000) (hr : r.val = 1000 * t.val + p.val) :
    (iblk2 V c 0 t : Vec Ideal S1000x256 .f32) (ix2 p k) = (V c main_v6 : S10000x256.Idx → EReal) (ix2 r k) := by
  obtain ⟨e0, e1, -⟩ := idx_facts t
  unfold iblk2
  rw [View.read_apply]
  show V c main_v6 _ = V c main_v6 _
  congr 1
  funext a; apply Fin.ext
  match a with
  | ⟨0, _⟩ => show win2_0.index t (0 : Fin 2) * 1000 + 1 * p.val = r.val; omega
  | ⟨1, _⟩ => show win2_0.index t (1 : Fin 2) * 256 + 1 * k.val = k.val; omega

/-- The weights' block is the whole matrix at every point. -/
theorem iblk_w (c : Dev nD) (t : Fin cfg2.N) (k q : Fin 256) :
    (iblk2 V c 1 t : Vec Ideal S256x256 .f32) (ix2 k q) = (V c main_arg10 : S256x256.Idx → EReal) (ix2 k q) := by
  obtain ⟨-, -, e2, e3, -⟩ := idx_facts t
  unfold iblk2
  rw [View.read_apply]
  show V c main_arg10 _ = V c main_arg10 _
  congr 1
  funext a; apply Fin.ext
  match a with
  | ⟨0, _⟩ => show win2_1.index t (0 : Fin 2) * 256 + 1 * k.val = k.val; omega
  | ⟨1, _⟩ => show win2_1.index t (1 : Fin 2) * 256 + 1 * q.val = q.val; omega

/-- The bias block is the whole row at every point. -/
theorem iblk_b (c : Dev nD) (t : Fin cfg2.N) (q : Fin 256) :
    (iblk2 V c 2 t : Vec Ideal S256 .f32) (ix1 q) = (V c main_arg11 : S256.Idx → EReal) (ix1 q) := by
  obtain ⟨-, -, -, -, e4, -⟩ := idx_facts t
  unfold iblk2
  rw [View.read_apply]
  show V c main_arg11 _ = V c main_arg11 _
  congr 1
  funext a; apply Fin.ext
  match a with
  | ⟨0, _⟩ => show win2_2.index t (0 : Fin 1) * 256 + 1 * q.val = q.val; omega

/-- What point `t` writes back is block `t` of the affine image of the arrays the region was entered with. -/
theorem flushed_eq (c : Dev nD) (t : Fin cfg2.N) :
    (dat2 V c).flushed 3 t = ((cfg2.win 3).blk t).view.read (Elt Ideal)
      (Cert.Spec.affine (V c main_v6) (V c main_arg10) (V c main_arg11)) := by
  show (cfg2.win 3).cut (grid2.coords t) ((dat2 V c).after 3 t) = _
  rw [after2_3]
  unfold out2_3
  rw [View.canon_unit_zero hz2]
  simp only [View.ld_unit_zero (S := S1000x256) hz2, View.ld_unit_zero (S := S256x256) hz2, View.ld_unit_zero (S := S256) hz1]
  obtain ⟨e0, e1, e2, e3, e4, e5, e6⟩ := idx_facts t
  have ht := t_lt t
  funext j
  obtain ⟨p, q, rfl⟩ : ∃ (p : Fin 1000) (q : Fin 256), j = ix2 p q := ⟨j 0, j 1, eq_ix2 j⟩
  refine (pay_apply _ _ _ p q).trans ?_
  rw [View.read_apply]
  have hout : ((cfg2.win 3).blk t).view.emb (ix2 p q) = (ix2 (⟨1000 * t.val + p.val, by omega⟩ : Fin 10000) q : S10000x256.Idx) := by
    funext a; apply Fin.ext
    match a with
    | ⟨0, _⟩ => show win2_3.index t (0 : Fin 2) * 1000 + 1 * p.val = 1000 * t.val + p.val; omega
    | ⟨1, _⟩ => show win2_3.index t (1 : Fin 2) * 256 + 1 * q.val = q.val; omega
  rw [hout]
  show _ = Cert.Spec.affine (V c main_v6) (V c main_arg10) (V c main_arg11) (ix2 (⟨1000 * t.val + p.val, by omega⟩ : Fin 10000) q)
  rw [Cert.Spec.affine_apply, iblk_b V c t q]
  refine congrArg (· + _) (Finset.sum_congr rfl fun k _ => ?_)
  rw [iblk_x V c t p k ⟨1000 * t.val + p.val, by omega⟩ rfl, iblk_w V c t k q]

/-- An index of the result array is in point `t`'s block iff its row is among that block's thousand rows. -/
theorem mem_blk (t : Fin cfg2.N) (i : S10000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v7).slice (win2_3.rect t)).set ↔ _
  rw [View.set_slice_whole, Rect.mem_set_unit]
  exact Iff.rfl

/-- The ten blocks tile the result: row `r` lies in block `r / 1000`. -/
theorem cover (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  refine ⟨⟨(i 0).val / 1000, by rw [show cfg2.N = 10 from N_2]; omega⟩, flush2_3 _, ?_⟩
  rw [mem_blk]
  obtain ⟨-, -, -, -, -, e5, e6⟩ := idx_facts ⟨(i 0).val / 1000, by rw [show cfg2.N = 10 from N_2]; omega⟩
  intro a
  match a with
  | ⟨0, _⟩ => show win2_3.index _ (0 : Fin 2) * 1000 ≤ (i 0).val ∧ (i 0).val < win2_3.index _ (0 : Fin 2) * 1000 + 1000; rw [e5]; show (i 0).val / 1000 * 1000 ≤ _ ∧ _ < (i 0).val / 1000 * 1000 + 1000; omega
  | ⟨1, _⟩ => show win2_3.index _ (1 : Fin 2) * 256 ≤ (i 1).val ∧ (i 1).val < win2_3.index _ (1 : Fin 2) * 256 + 256; rw [e6]; omega

/-- THE RESULT ARRAY after the call: the affine image of the array the region found in its input window. -/
theorem out_array (c : Dev nD) :
    (dat2 V c).arrAt 3 cfg2.N = Cert.Spec.affine (V c main_v6) (V c main_arg10) (V c main_arg11) :=
  (dat2 V c).arrAt_eq_of_cover 3 _ (fun t _ => flushed_eq V c t) cover

end Cert.KernelIdeal.Out

end
-- ==== Proof.KValue.lean ====
/-
  The kernel program's result buffer at the end of @main, as a function of the launch memory: the three pallas_calls'
  result arrays (each read off its frame run) composed through the host stretches between them.
-/
import proofs.«402761_j2645699854682_1_alg».proof.Proof.KRun
import proofs.«402761_j2645699854682_1_alg».proof.Proof.KFold
import proofs.«402761_j2645699854682_1_alg».proof.Proof.Reg0
import proofs.«402761_j2645699854682_1_alg».proof.Proof.Reg1
import proofs.«402761_j2645699854682_1_alg».proof.Proof.Reg2

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer after the run: the last affine layer of the segment sum of the edge messages, whose two gathered
    arrays are the kernel's takes of the query and key layers at the destination and source indices. -/
theorem out_eq (c : Dev nD) :
    W6 m ρ c (Proc.devRef .tc main_v7)
      = Cert.Spec.affine
          (Take.segSum (F := Ideal) (m ((c : Thread nD τ).loc main_arg3))
            (Cert.Spec.edge (m ((c : Thread nD τ).loc main_arg1)) (m ((c : Thread nD τ).loc main_arg8)) (m ((c : Thread nD τ).loc main_arg9))
              (Take.takeFill (F := Ideal)
                (Cert.Spec.affine (m ((c : Thread nD τ).loc main_arg0)) (m ((c : Thread nD τ).loc main_arg4)) (m ((c : Thread nD τ).loc main_arg5)))
                (m ((c : Thread nD τ).loc main_arg3)))
              (Take.takeFill (F := Ideal)
                (Cert.Spec.affine (m ((c : Thread nD τ).loc main_arg0)) (m ((c : Thread nD τ).loc main_arg6)) (m ((c : Thread nD τ).loc main_arg7)))
                (m ((c : Thread nD τ).loc main_arg2)))))
          (m ((c : Thread nD τ).loc main_arg10)) (m ((c : Thread nD τ).loc main_arg11)) := by
  rw [Fold.W6_out, Out.out_array (V5 m ρ) c, Fold.V5_ft, Fold.V5_arg10, Fold.V5_arg11, Edge.m_array (V3 m ρ) c,
    Fold.V3_arg1, Fold.V3_arg8, Fold.V3_arg9, Fold.V3_v1, Fold.V3_v2, QK.q_array (V0 m ρ) c, QK.k_array (V0 m ρ) c]

end Cert.KernelIdeal.Whole

end
-- ==== Proof.RefValue.lean ====
/-
  The reference's result, as the run of its host operations leaves it, is the composition of the specification's
  functions: three affine layers of the inputs, two row-takes of the node layers at the edge indices, the clipped sum
  per edge, the segment sum over destination indices, and a last affine layer.

  A host affine layer — a `dot_general` contracting the operands' inner axis, plus the bias laid out as a `[1, N]` row and
  broadcast down the rows — is `(∑ k, X (p, k) * W (k, q)) + b q` at `(p, q)`; a maximum against the broadcast zero
  word is the maximum against that word's value.
-/
import proofs.«402761_j2645699854682_1_alg».proof.Proof.Gen.ReferenceIdeal.Run
import proofs.«402761_j2645699854682_1_alg».proof.Proof.Gen.ReferenceIdeal.Read
import proofs.«402761_j2645699854682_1_alg».proof.Proof.TakeDefs
import proofs.«402761_j2645699854682_1_alg».proof.Proof.Spec
import proofs.«402761_j2645699854682_1_alg».proof.Proof.LibRowOps
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.ValueIdx
open scoped BigOperators

/-- A host affine layer over `n` rows: the product contracting the inner axis plus the bias row broadcast down the
    rows is, entry by entry, `(∑ k, X (p, k) * W (k, q)) + b q`. -/
private theorem host_affine {n : ℕ} (d : DotDims ⟨2, ![n, 256]⟩ ⟨2, ![256, 256]⟩ ⟨2, ![n, 256]⟩)
    (hd : d = DotDims.plain n 256 256)
    (h1 : (⟨1, ![256]⟩ : Shape).BroadcastsInDim ⟨2, ![1, 256]⟩ ![1])
    (h2 : (⟨2, ![1, 256]⟩ : Shape).BroadcastsInDim ⟨2, ![n, 256]⟩ ![0, 1])
    (X : FVec Ideal ⟨2, ![n, 256]⟩ .f32) (W : FVec Ideal ⟨2, ![256, 256]⟩ .f32) (b : FVec Ideal ⟨1, ![256]⟩ .f32) :
    addf (Host.dotGeneral d none X W)
        (broadcastInDim ⟨2, ![n, 256]⟩ ![0, 1] h2 (broadcastInDim ⟨2, ![1, 256]⟩ ![1] h1 b))
      = Cert.Spec.affine X W b := by
  funext i
  obtain ⟨p, q, rfl⟩ : ∃ p q, i = ix2 p q := ⟨i 0, i 1, eq_ix2 i⟩
  rw [ValueIdx.addf_apply, Cert.LibRowOps.dotGeneral_plain_apply d hd, Cert.Spec.affine_apply]
  congr 1
  have hi : StableHlo.Predicate.ij p q = ix2 p q := by
    funext a; match a with | ⟨0, _⟩ => rfl | ⟨1, _⟩ => rfl
  have hq : (Shape.Idx.ofFin q : (⟨1, ![256]⟩ : Shape).Idx) = ix1 q := by
    funext a; match a with | ⟨0, _⟩ => rfl
  rw [← hi, ← hq]
  exact StableHlo.Predicate.bcast_cols h1 h2 b p q

/-- The clipped sum per edge: a maximum against the broadcast zero word is the maximum against that word's value. -/
private theorem host_edge {n : ℕ} (h : (⟨0, ![]⟩ : Shape).BroadcastsInDim ⟨2, ![n, 256]⟩ ![])
    (A : FVec Ideal ⟨2, ![n, 256]⟩ .f32) (W : FVec Ideal ⟨2, ![256, 256]⟩ .f32) (b : FVec Ideal ⟨1, ![256]⟩ .f32)
    (T1 T2 : FVec Ideal ⟨2, ![n, 256]⟩ .f32) :
    maximumf (addf (addf T1 T2) (Cert.Spec.affine A W b : FVec Ideal ⟨2, ![n, 256]⟩ .f32))
        (broadcastInDim ⟨2, ![n, 256]⟩ ![] h (constant ⟨0, ![]⟩ .f32 0x00000000#32))
      = Cert.Spec.edge A W b T1 T2 := by
  funext i
  rfl

/-- The reference's result term (the generated run's, the argument arrays as variables) is the specification. -/
theorem result_eq (a0 : FVec Ideal S10000x256 .f32) (a1 : FVec Ideal S160000x256 .f32) (a2 a3 : IVec S160000 32)
    (a4 : FVec Ideal S256x256 .f32) (a5 : FVec Ideal S256 .f32) (a6 : FVec Ideal S256x256 .f32) (a7 : FVec Ideal S256 .f32)
    (a8 : FVec Ideal S256x256 .f32) (a9 : FVec Ideal S256 .f32) (a10 : FVec Ideal S256x256 .f32) (a11 : FVec Ideal S256 .f32) :
    (addf (Host.dotGeneral dot_S10000x256_S256x256_S10000x256_1_0_0_1_n_n none (Host.scatterAdd scatter_S10000x256_S160000x1_S160000x256_1_0_0_1 (broadcastInDim S10000x256 ![] bcast_S_S10000x256 (constant S_ .f32 0x00000000#32)) (broadcastInDim S160000x1 ![0] bcast_S160000_S160000x1_0 a3) (maximumf (addf (addf (Host.gather gather_S10000x256_S160000x1_S160000x256_1_0_n_n_0_1_1256 (addf (Host.dotGeneral dot_S10000x256_S256x256_S10000x256_1_0_0_1_n_n none a0 a4) (broadcastInDim S10000x256 ![0, 1] bcast_S1x256_S10000x256_0_1 (broadcastInDim S1x256 ![1] bcast_S256_S1x256_1 a5))) (broadcastInDim S160000x1 ![0] bcast_S160000_S160000x1_0 (select (cmpi .slt a3 (broadcastInDim S160000 ![] bcast_S_S160000 (constantI S_ 32 0#32))) (addi a3 (broadcastInDim S160000 ![] bcast_S_S160000 (constantI S_ 32 10000#32))) a3))) (Host.gather gather_S10000x256_S160000x1_S160000x256_1_0_n_n_0_1_1256 (addf (Host.dotGeneral dot_S10000x256_S256x256_S10000x256_1_0_0_1_n_n none a0 a6) (broadcastInDim S10000x256 ![0, 1] bcast_S1x256_S10000x256_0_1 (broadcastInDim S1x256 ![1] bcast_S256_S1x256_1 a7))) (broadcastInDim S160000x1 ![0] bcast_S160000_S160000x1_0 (select (cmpi .slt a2 (broadcastInDim S160000 ![] bcast_S_S160000 (constantI S_ 32 0#32))) (addi a2 (broadcastInDim S160000 ![] bcast_S_S160000 (constantI S_ 32 10000#32))) a2)))) (addf (Host.dotGeneral dot_S160000x256_S256x256_S160000x256_1_0_0_1_n_n none a1 a8) (broadcastInDim S160000x256 ![0, 1] bcast_S1x256_S160000x256_0_1 (broadcastInDim S1x256 ![1] bcast_S256_S1x256_1 a9)))) (broadcastInDim S160000x256 ![] bcast_S_S160000x256 (constant S_ .f32 0x00000000#32)))) a10) (broadcastInDim S10000x256 ![0, 1] bcast_S1x256_S10000x256_0_1 (broadcastInDim S1x256 ![1] bcast_S256_S1x256_1 a11)) : FVec Ideal S10000x256 .f32)
      = Cert.Spec.affine
          (Take.segSum (F := Ideal) a3
            (Cert.Spec.edge a1 a8 a9
              (Take.takeClamp (F := Ideal) (Cert.Spec.affine a0 a4 a5) a3)
              (Take.takeClamp (F := Ideal) (Cert.Spec.affine a0 a6 a7) a2)))
          a10 a11 := by
  -- the two node layers, the edge layer, the clipped sum, then the last layer
  rw [host_affine dot_S10000x256_S256x256_S10000x256_1_0_0_1_n_n rfl bcast_S256_S1x256_1 bcast_S1x256_S10000x256_0_1 a0 a4 a5,
    host_affine dot_S10000x256_S256x256_S10000x256_1_0_0_1_n_n rfl bcast_S256_S1x256_1 bcast_S1x256_S10000x256_0_1 a0 a6 a7,
    host_affine dot_S160000x256_S256x256_S160000x256_1_0_0_1_n_n rfl bcast_S256_S1x256_1 bcast_S1x256_S160000x256_0_1 a1 a8 a9,
    host_edge bcast_S_S160000x256 a1 a8 a9,
    host_affine dot_S10000x256_S256x256_S10000x256_1_0_0_1_n_n rfl bcast_S256_S1x256_1 bcast_S1x256_S10000x256_0_1 _ a10 a11]
  rfl

end Cert.ReferenceIdeal.RefValue

end
-- ==== Proof.TakeRows.lean ====
/-
  Reading the two row-takes at one row.

  Where the index of edge `e` lies in `[0, 10000)` the wrap leaves it alone, the clamp leaves it alone, and the
  kernel's range bit is set: both programs read row `a e` of the table.
-/
import proofs.«402761_j2645699854682_1_alg».proof.Proof.TakeDefs
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce
import Idealize.ShloMosaic.Lib.Affine

set_option maxRecDepth 16384

noncomputable section

open Idealize.ShloMosaic Idealize.ShloMosaic.ValueIdx

namespace Cert.TakeRows

/-- A list equal to a one-element list has that element at every position. -/
private theorem getElem_of_eq_singleton {β : Type} {l : List β} {b : β} (h : l = [b]) (i : Nat) (hi : i < l.length) :
    l[i] = b := by
  subst h
  match i, hi with
  | 0, _ => rfl

/-- A gather of whole rows: operand `[N, C]`, start indices a column `[R, 1]`, result `[R, C]`; axis 0 of the operand
    is collapsed and start-indexed, axis 1 is kept whole. Result element `(e, j)` is the operand at row
    `idx (e, 0)`, read signed and clamped into `[0, N − 1]`, column `j`. -/
private theorem gather_rows_apply {α : Type} {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (e : Fin R) (j : Fin C) :
    Host.gather d x idx (ix2 e j)
      = x (ix2 (⟨min (idx (ix2 e 0)).toInt.toNat (N - 1), by omega⟩ : Fin N) j) := by
  unfold Host.gather
  congr 1
  funext a
  apply Fin.ext
  have hb : ∀ c : Fin 2, c ∉ d.operandBatchingDims := by intro c; rw [hob]; exact List.not_mem_nil
  match a with
  | ⟨0, _⟩ =>
    -- the collapsed, start-indexed axis: the clamped start, no batching or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = _
    rw [hsl]
    congr 3
    congr 1
    funext b
    match b with
    | ⟨0, _⟩ =>
      -- the start indices' row: the result's batch axis 0
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton hbd]
      rfl
    | ⟨1, _⟩ =>
      -- the index vector's axis: component 0 of the start index
      unfold GatherDims.siIdx
      rw [dif_pos (by rw [hivd])]
      apply Fin.ext
      show List.idxOf (0 : Fin 2) d.startIndexMap = 0
      rw [hsim]; simp
  | ⟨1, _⟩ =>
    -- the kept axis: start 0, the result's offset coordinate
    have hm : (1 : Fin 2) ∉ d.startIndexMap := by rw [hsim]; simp
    have hk : (1 : Fin 2) ∈ d.sKept := by rw [GatherDims.mem_sKept, hcoll, hob]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add, getElem_of_eq_singleton hoff]
    rfl

end Cert.TakeRows

namespace Cert.TakeRows

/-- An `and`-reduction over the unit axis of a column `[R, 1]` is, at row `e`, the column's one entry `and`-ed
    with the initial value. -/
private theorem reduce_andi_col {R : Nat} {u : Shape} (X : IVec ⟨2, ![R, 1]⟩ 1) (init : IVec u 1)
    (h' : (⟨2, ![R, 1]⟩ : Shape).ReducesTo [1] ⟨1, ![R]⟩) (h : (⟨2, ![R, 1]⟩ : Shape).Reduces [1] ⟨1, ![R]⟩)
    (hu : 0 < u.numel) (e : Fin R) :
    Host.reduce IntOp.andi X init h' hu (ix1 e) = IntOp.andi (X (ix2 e 0)) (init (Shape.Idx.first hu)) := by
  have hl : ∀ k : Fin ((⟨2, ![R, 1]⟩ : Shape).size 1), h.lift (ix1 e) k = ix2 e 0 := by
    intro k
    funext c
    apply Fin.ext
    show h.liftVal (ix1 e) k.val c = _
    unfold Shape.Reduces.liftVal
    match c with
    | ⟨0, _⟩ => rfl
    | ⟨1, _⟩ =>
      have hk : k.val < 1 := k.isLt
      show k.val = 0
      omega
  have hc : (X ∘ h.lift (ix1 e)) = fun _ => X (ix2 e 0) := funext fun k => congrArg X (hl k)
  rw [Host.reduce_eq_fold_single IntOp.andi X init h' h hu (ix1 e), hc]
  show (Finset.univ : Finset (Fin 1)).fold IntOp.andi _ (fun _ => X (ix2 e 0)) = _
  rw [Finset.univ_unique, Finset.fold_singleton]

/-- A word whose signed value is not negative is not below zero … -/
private theorem cmpi_slt_zero (w : BitVec 32) (hlo : 0 ≤ w.toInt) : IntOp.cmpi .slt w 0#32 = 0#1 :=
  eq_zero_of_ne_one fun h => by
    have := IntOp.cmpi_slt.mp h
    simp at this
    omega

/-- … is at least zero … -/
private theorem cmpi_sge_zero (w : BitVec 32) (hlo : 0 ≤ w.toInt) : IntOp.cmpi .sge w 0#32 = 1#1 :=
  IntOp.cmpi_sge.mpr (by simpa using hlo)

/-- … and one whose signed value is below 10000 is at most 9999. -/
private theorem cmpi_sle_9999 (w : BitVec 32) (hhi : w.toInt < 10000) : IntOp.cmpi .sle w 9999#32 = 1#1 :=
  IntOp.cmpi_sle.mpr (by
    have : (9999#32 : BitVec 32).toInt = 9999 := by decide
    rw [this]; omega)

end Cert.TakeRows

namespace Cert.KernelIdeal.Take

open Cert.KernelIdeal Cert.TakeRows

/-- Where the index is not negative the wrap leaves it alone: the start-index column holds the index itself. -/
private theorem idxCol_row (a : IVec S160000 32) (e : Fin 160000) (hlo : 0 ≤ (a (ix1 e)).toInt) :
    idxCol a (ix2 e 0) = a (ix1 e) := by
  unfold idxCol
  rw [broadcastInDim_apply _ _ _ (ix2 e 0) (ix1 e) (fun c => match c with | ⟨0, _⟩ => rfl)]
  show Scalar.select (IntOp.cmpi .slt (a (ix1 e)) 0#32) (IntOp.addi (a (ix1 e)) 10000#32) (a (ix1 e)) = _
  rw [cmpi_slt_zero _ hlo, select_zero]

/-- Where the index lies in `[0, 10000)` the range bit of its row is set. -/
private theorem inRange_row (a : IVec S160000 32) (e : Fin 160000)
    (hlo : 0 ≤ (a (ix1 e)).toInt) (hhi : (a (ix1 e)).toInt < 10000) : inRange a (ix1 e) = 1#1 := by
  unfold inRange
  rw [reduce_andi_col _ _ _ (by decide) _ e]
  show IntOp.andi (IntOp.andi (IntOp.cmpi .sge (idxCol a (ix2 e 0)) 0#32) (IntOp.cmpi .sle (idxCol a (ix2 e 0)) 9999#32)) 1#1 = 1#1
  rw [idxCol_row a e hlo, cmpi_sge_zero _ hlo, cmpi_sle_9999 _ hhi]
  rfl

/-- The kernel's take at an edge whose index is in range is that row of the table. -/
theorem takeFill_row (x : FVec Ideal S10000x256 .f32) (a : IVec S160000 32) (e : Fin 160000) (j : Fin 256)
    (hlo : 0 ≤ (a (ix1 e)).toInt) (hhi : (a (ix1 e)).toInt < 10000) :
    takeFill (F := Ideal) x a (ix2 e j) = x (ix2 (⟨(a (ix1 e)).toInt.toNat, by omega⟩ : Fin 10000) j) := by
  unfold takeFill
  rw [select_apply,
    broadcastInDim_apply _ _ (inRange a) (ix2 e j) (ix1 e) (fun c => match c with | ⟨0, _⟩ => rfl),
    inRange_row a e hlo hhi, select_one,
    gather_rows_apply (by decide) _ rfl rfl rfl rfl rfl]
  congr 2
  apply Fin.ext
  show min (idxCol a (ix2 e 0)).toInt.toNat (10000 - 1) = (a (ix1 e)).toInt.toNat
  rw [idxCol_row a e hlo]
  omega

end Cert.KernelIdeal.Take

namespace Cert.ReferenceIdeal.Take

open Cert.ReferenceIdeal Cert.TakeRows

/-- Where the index is not negative the wrap leaves it alone: the start-index column holds the index itself. -/
private theorem idxCol_row (a : IVec S160000 32) (e : Fin 160000) (hlo : 0 ≤ (a (ix1 e)).toInt) :
    idxCol a (ix2 e 0) = a (ix1 e) := by
  unfold idxCol
  rw [broadcastInDim_apply _ _ _ (ix2 e 0) (ix1 e) (fun c => match c with | ⟨0, _⟩ => rfl)]
  show Scalar.select (IntOp.cmpi .slt (a (ix1 e)) 0#32) (IntOp.addi (a (ix1 e)) 10000#32) (a (ix1 e)) = _
  rw [cmpi_slt_zero _ hlo, select_zero]

/-- The reference's take at an edge whose index is in range is that row of the table. -/
theorem takeClamp_row (x : FVec Ideal S10000x256 .f32) (a : IVec S160000 32) (e : Fin 160000) (j : Fin 256)
    (hlo : 0 ≤ (a (ix1 e)).toInt) (hhi : (a (ix1 e)).toInt < 10000) :
    takeClamp (F := Ideal) x a (ix2 e j) = x (ix2 (⟨(a (ix1 e)).toInt.toNat, by omega⟩ : Fin 10000) j) := by
  unfold takeClamp
  rw [gather_rows_apply (by decide) _ rfl rfl rfl rfl rfl]
  congr 2
  apply Fin.ext
  show min (idxCol a (ix2 e 0)).toInt.toNat (10000 - 1) = (a (ix1 e)).toInt.toNat
  rw [idxCol_row a e hlo]
  omega

end Cert.ReferenceIdeal.Take

end
-- ==== Proof.SegSum.lean ====
/-
  The segment sum, read through the rows that land.

  A row of updates whose index is outside
  `[0, 10000)` lands nowhere in the segment sum, so the sum depends on the updates only through the rows whose
  index is in range.
-/
import proofs.«402761_j2645699854682_1_alg».proof.Proof.TakeDefs
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open Idealize.ShloMosaic Idealize.ShloMosaic.ValueIdx

namespace Cert.KernelIdeal.Take

open Cert.KernelIdeal

/-- A row scatter into an [N × C] table: updates [R × C], one index word per update row (an [R × 1] column), the
    table's row axis inserted and named by the index, the column axis the window. The start-index position update
    `j` reads is its own row of the column. -/
private theorem siIdx_row {N C R : Nat} (d : ScatterDims ⟨2, ![N, C]⟩ ⟨2, ![R, 1]⟩ ⟨2, ![R, C]⟩)
    (huw : d.updateWindowDims = [1]) (hsd : d.scatterDimsToOperandDims = [0]) (hivd : d.indexVectorDim = 1)
    (j : (⟨2, ![R, C]⟩ : Shape).Idx) (c : Fin d.scatterDimsToOperandDims.length) :
    d.siIdx j c = ix2 (j 0) (0 : Fin 1) := by
  -- the one update scatter axis is axis 0: the only axis that is not the window axis 1
  have hu : ∀ x ∈ d.uScatter, x = (0 : Fin 2) := by
    intro x hx
    have hx' : x ∉ d.updateWindowDims := by
      have := (List.mem_filter.1 hx).2
      simpa using this
    rw [huw] at hx'
    match x, hx' with
    | ⟨0, _⟩, _ => rfl
    | ⟨1, _⟩, hx' => exact absurd (List.mem_singleton.mpr rfl) hx'
  have hc : c.val = 0 := by
    have hlt := c.isLt
    have hlen : d.scatterDimsToOperandDims.length = 1 := by rw [hsd]; rfl
    omega
  funext b
  match b with
  | ⟨0, _⟩ =>
    unfold ScatterDims.siIdx
    rw [dif_neg (by rw [hivd]; simp)]
    unfold ScatterDims.siCoord
    apply Fin.ext
    simp only [Fin.val_cast]
    exact congrArg (fun x => (j x).val) (hu _ (List.getElem_mem _))
  | ⟨1, _⟩ =>
    unfold ScatterDims.siIdx
    rw [dif_pos (by rw [hivd])]
    apply Fin.ext
    exact hc

/-- An update that lands somewhere in the table has its index word in `[0, N)`: on the table's row axis the result
    index is the index word itself (the axis is inserted, so the window adds nothing), and it is kept only when it is a
    row of the table. -/
private theorem landed_inRange {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w) (j : (⟨2, ![R, C]⟩ : Shape).Idx)
    (i : (⟨2, ![N, C]⟩ : Shape).Idx) (hl : d.resultIdx? j idx = some i) :
    0 ≤ (idx (ix2 (j 0) (0 : Fin 1))).toInt ∧ (idx (ix2 (j 0) (0 : Fin 1))).toInt < N := by
  unfold ScatterDims.resultIdx? at hl
  split at hl
  · next hall =>
    have h0 := hall (0 : Fin 2)
    have hm : (0 : Fin 2) ∈ d.scatterDimsToOperandDims := by rw [hsd]; exact List.mem_singleton.mpr rfl
    have hk : (0 : Fin 2) ∉ d.sKept := by
      intro hmem
      have := (List.mem_filter.1 hmem).2
      rw [hiw] at this
      simp at this
    have hw : d.window j (0 : Fin 2) = 0 := by unfold ScatterDims.window; rw [dif_neg hk]
    have hs : d.start j idx (0 : Fin 2) = (idx (ix2 (j 0) (0 : Fin 1))).toInt := by
      unfold ScatterDims.start
      rw [dif_pos hm, siIdx_row d huw hsd hivd j]
      rfl
    rw [hs, hw] at h0
    have hN : (⟨2, ![N, C]⟩ : Shape).size (0 : Fin 2) = N := rfl
    rw [hN] at h0
    simpa using h0
  · exact absurd hl (by simp)

/-- The segment sum reads the updates only at the rows whose index is in range. -/
theorem segSum_congr (a : IVec S160000 32) (u u' : FVec Ideal S160000x256 .f32)
    (h : ∀ (e : Fin 160000) (j : Fin 256), 0 ≤ (a (ix1 e)).toInt → (a (ix1 e)).toInt < 10000 → u (ix2 e j) = u' (ix2 e j)) :
    segSum (F := Ideal) a u = segSum (F := Ideal) a u' := by
  unfold segSum Host.scatterAdd
  rw [Ideal.hostScatterAdd_def, Ideal.hostScatterAdd_def]
  funext i
  unfold Ideal.hostScatterAdd
  refine congrArg (_ + ·) (Finset.sum_congr rfl fun j hj => ?_)
  have hl := (Finset.mem_filter.1 hj).2
  obtain ⟨h0, h1⟩ := landed_inRange scatter_S10000x256_S160000x1_S160000x256_1_0_0_1 rfl rfl rfl rfl _ j i hl
  -- the index column at row j's position is the index word of that row
  have hb : broadcastInDim S160000x1 ![0] Facts₀.bcast_S160000_S160000x1_0 a (ix2 (j 0) (0 : Fin 1)) = a (ix1 (j 0)) :=
    broadcastInDim_apply _ _ a _ (ix1 (j 0)) (fun x => by
      match x with
      | ⟨0, _⟩ => rw [if_neg (by intro hh; change 160000 = 1 at hh; omega)]; rfl)
  rw [hb] at h0 h1
  rw [eq_ix2 j]
  exact h (j 0) (j 1) h0 h1

end Cert.KernelIdeal.Take

namespace Cert

/-- The two programs' segment sums are one function of the index array and the updates. -/
theorem segSum_eq (a : IVec Cert.KernelIdeal.S160000 32) (u : FVec Ideal Cert.KernelIdeal.S160000x256 .f32) :
    Cert.KernelIdeal.Take.segSum (F := Ideal) a u = Cert.ReferenceIdeal.Take.segSum (F := Ideal) a u := by
  rfl

end Cert

end
-- ==== Proof.Bridge.lean ====
/-
  The two programs' results are one function of the arguments, given that every source index is a row of the node table.

  Both results are the last affine layer of a segment sum of edge messages, and the segment sums are the same function.
  The messages differ only in how the two node rows are taken: the kernel fills a row with a sentinel word when its index
  is out of range, the reference clamps the index. A message row whose destination index is out of range lands nowhere
  in the segment sum; at a row whose destination index is in range the destination takes agree, and the source takes
  agree by the hypothesis on the source indices.
-/
import proofs.«402761_j2645699854682_1_alg».proof.Proof.TakeRows
import proofs.«402761_j2645699854682_1_alg».proof.Proof.SegSum
import proofs.«402761_j2645699854682_1_alg».proof.Proof.Spec

noncomputable section

namespace Cert.Bridge

open Idealize.ShloMosaic Idealize.ShloMosaic.ValueIdx
open Cert.KernelIdeal

/-- The kernel's function of the arguments is the reference's. -/
theorem kernel_eq_reference (a0 : FVec Ideal S10000x256 .f32) (a1 : FVec Ideal S160000x256 .f32) (a2 a3 : IVec S160000 32)
    (a4 : FVec Ideal S256x256 .f32) (a5 : FVec Ideal S256 .f32) (a6 : FVec Ideal S256x256 .f32) (a7 : FVec Ideal S256 .f32)
    (a8 : FVec Ideal S256x256 .f32) (a9 : FVec Ideal S256 .f32) (a10 : FVec Ideal S256x256 .f32) (a11 : FVec Ideal S256 .f32)
    (hsrc : ∀ e : Fin 160000, 0 ≤ (a2 (ix1 e)).toInt ∧ (a2 (ix1 e)).toInt < 10000) :
    Cert.Spec.affine
        (Cert.KernelIdeal.Take.segSum (F := Ideal) a3
          (Cert.Spec.edge a1 a8 a9
            (Cert.KernelIdeal.Take.takeFill (F := Ideal) (Cert.Spec.affine a0 a4 a5) a3)
            (Cert.KernelIdeal.Take.takeFill (F := Ideal) (Cert.Spec.affine a0 a6 a7) a2)))
        a10 a11
      = Cert.Spec.affine
        (Cert.ReferenceIdeal.Take.segSum (F := Ideal) a3
          (Cert.Spec.edge a1 a8 a9
            (Cert.ReferenceIdeal.Take.takeClamp (F := Ideal) (Cert.Spec.affine a0 a4 a5) a3)
            (Cert.ReferenceIdeal.Take.takeClamp (F := Ideal) (Cert.Spec.affine a0 a6 a7) a2)))
        a10 a11 := by
  rw [← Cert.segSum_eq]
  refine congrArg (fun FT => Cert.Spec.affine FT a10 a11) ?_
  refine Cert.KernelIdeal.Take.segSum_congr a3 _ _ (fun e j hlo hhi => ?_)
  refine Cert.Spec.edge_congr _ _ _ _ _ _ _ _ ?_ ?_
  · rw [Cert.KernelIdeal.Take.takeFill_row _ _ e j hlo hhi, Cert.ReferenceIdeal.Take.takeClamp_row _ _ e j hlo hhi]
  · rw [Cert.KernelIdeal.Take.takeFill_row _ _ e j (hsrc e).1 (hsrc e).2,
      Cert.ReferenceIdeal.Take.takeClamp_row _ _ e j (hsrc e).1 (hsrc e).2]

end Cert.Bridge

end
-- ==== Proof.PreDecode.lean ====
/-
  The precondition read back at one edge: the added conjunct says every source index lies in `[0, 10000)`, as signed words.
-/
import proofs.«402761_j2645699854682_1_alg».proof.Defs
import proofs.«402761_j2645699854682_1_alg».proof.Proof.Gen.KernelIdeal
import proofs.«402761_j2645699854682_1_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.KernelIdeal.PreDecode

open Cert.KernelIdeal
open Idealize.ShloMosaic Idealize.ShloMosaic.TcCoe Idealize.SL.Sem Idealize.ShloMosaic.ValueIdx

/-- Under the precondition every source index is a row of the node table. -/
theorem src_range (m : (ℓ : Loc nD τ sig) → Buf (Elt Ideal) ℓ) (h : Cert.Pre_KernelIdeal m) (c : Dev nD) (e : Fin 160000) :
    0 ≤ ((m ((c.tc : Thread nD τ).loc main_arg2) : IVec S160000 32) (ix1 e)).toInt
      ∧ ((m ((c.tc : Thread nD τ).loc main_arg2) : IVec S160000 32) (ix1 e)).toInt < 10000 := by
  -- The precondition is an equation of rank-0 arrays; read it at the one index.
  have e0 := congrFun (h c) ValueIdx.ix0
  unfold Cert.Pre_finite_inputs.fn Cert.Pre_finite_inputs.fn_part1 Cert.Pre_finite_inputs.fn_part2
    Cert.Pre_finite_inputs.fn_part3 at e0
  -- The outermost conjunction: its right operand is the "all edges" reduction of the range test.
  obtain ⟨-, e1⟩ := IntOp.andi_eq_one.1 e0
  -- A rank-0 shape has exactly one index, so a conjunction over all edges that is 1 is 1 at every edge.
  haveI : Subsingleton Cert.Pre_finite_inputs.S_.Idx := ⟨fun a b => funext fun d => d.elim0⟩
  have e2 := Host.reduce_andi_all _ _ _ _ _ e1 (ix1 e)
  -- At edge `e` the test is `(0 ≤ w) ∧ (w < 10000)` on the signed word `w`.
  obtain ⟨hge, hlt⟩ := IntOp.andi_eq_one.1 e2
  have hge' := IntOp.cmpi_sge.1 hge
  have hlt' := IntOp.cmpi_slt.1 hlt
  -- A broadcast scalar reads the scalar at every index; the scalars are the literals 0 and 10000.
  rw [StableHlo.Predicate.bcast_scalar _ Cert.Pre_finite_inputs.Facts.h_S_] at hge' hlt'
  have z0 : (0#32 : BitVec 32).toInt = 0 := rfl
  have z1 : (10000#32 : BitVec 32).toInt = 10000 := rfl
  change (0#32 : BitVec 32).toInt ≤ _ at hge'
  change _ < (10000#32 : BitVec 32).toInt at hlt'
  rw [z0] at hge'
  rw [z1] at hlt'
  exact ⟨hge', hlt'⟩

end Cert.KernelIdeal.PreDecode

end
-- ==== Proof.lean ====
/-
  The certificate of a message-passing layer against its jnp reference: three dense layers of the node and edge
  features, two takes of node rows at the edges' destination and source indices, the clipped sum per edge, a segment sum
  over destinations, and a last dense layer.

  Over the extended reals every dense layer — a kernel's matrix product into a zero accumulator plus a bias row, or the
  host's `dot_general` plus a broadcast bias — is the affine map `(∑ k, X (r, k) * W (k, q)) + b q`, the format changes
  inside the kernels being the identity; no algebraic law beyond that is needed, so finiteness of the inputs is never
  used. The two programs differ in one place: the kernel's `jnp.take` fills a row with a sentinel word where the index is out
  of range, the reference's indexing clamps. For the destination indices this difference never reaches the result: a
  message row whose destination index is out of range is dropped by the segment sum in both programs. For the source
  indices it would, so the precondition carries the evident-domain conjunct that every source index is a row of the node
  table.

  The three frames: the kernel programs' are the generated frame certificates, the reference's its generated run with the
  result dropped. The idealization rewrote nothing, so `preserves` is trivial. For `algebraic`, the kernel's run names the
  result buffer at the last segment boundary's contents, which the three pallas_calls' result arrays and the host
  stretches between them compute as the function above of the launch memory; the reference's run is the same function
  of its own arguments, which agree with the kernel's.
-/
import proofs.«402761_j2645699854682_1_alg».proof.Defs
import proofs.«402761_j2645699854682_1_alg».proof.Proof.Gen.Kernel
import proofs.«402761_j2645699854682_1_alg».proof.Proof.Gen.Kernel.Skeleton
import proofs.«402761_j2645699854682_1_alg».proof.Proof.Gen.Kernel.Launch
import proofs.«402761_j2645699854682_1_alg».proof.Proof.Gen.Kernel.Points
import proofs.«402761_j2645699854682_1_alg».proof.Proof.Gen.Kernel.Frame
import proofs.«402761_j2645699854682_1_alg».proof.Proof.Gen.KernelIdeal
import proofs.«402761_j2645699854682_1_alg».proof.Proof.Gen.KernelIdeal.Skeleton
import proofs.«402761_j2645699854682_1_alg».proof.Proof.Gen.KernelIdeal.Launch
import proofs.«402761_j2645699854682_1_alg».proof.Proof.Gen.KernelIdeal.Points
import proofs.«402761_j2645699854682_1_alg».proof.Proof.Gen.KernelIdeal.Frame
import proofs.«402761_j2645699854682_1_alg».proof.Proof.Gen.ReferenceIdeal
import proofs.«402761_j2645699854682_1_alg».proof.Proof.Gen.ReferenceIdeal.Run
import proofs.«402761_j2645699854682_1_alg».proof.Proof.Gen.Pre_finite_inputs
import proofs.«402761_j2645699854682_1_alg».proof.Proof.KValue
import proofs.«402761_j2645699854682_1_alg».proof.Proof.RefValue
import proofs.«402761_j2645699854682_1_alg».proof.Proof.Bridge
import proofs.«402761_j2645699854682_1_alg».proof.Proof.PreDecode
import Idealize.ShloMosaic.Adequacy
import Idealize.ShloMosaic.Init

noncomputable section

namespace Cert.Proof

open Idealize.ShloMosaic Idealize.ShloMosaic.TcCoe Idealize.SL.Sem

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the last affine layer of the segment sum of the edge messages of their arguments. -/
theorem algebraic : Cert.algebraic_KernelIdeal_ReferenceIdeal := by
  intro m ρ m' ρ' hpre hagree
  refine ⟨_, (θ_run Cert.KernelIdeal.defs _ _).mono
      (fun _ h c => ⟨(h c).1.trans (Cert.KernelIdeal.Whole.out_eq m ρ c), (h c).2⟩)
      (Cert.KernelIdeal.Gen.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.RefValue.result_eq, h0, h1, h2, h3, h4, h5, h6, h7, h8, h9, h10, h11]
  exact (Cert.Bridge.kernel_eq_reference _ _ _ _ _ _ _ _ _ _ _ _ (Cert.KernelIdeal.PreDecode.src_range m hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
